-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x512 : Shape := ⟨3, ![64, 256, 512]⟩
abbrev S64x1024x512 : Shape := ⟨3, ![64, 1024, 512]⟩
abbrev S_ : Shape := ⟨0, ![]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn {F : FTy → Type} [FloatOps F] (main_arg0 : FVec F S64x256x512 .f32) (main_arg1 : FVec F S64x1024x512 .f32) : IVec S_ 1 :=
  let main_v0 : FVec F S64x256x512 .f32 := Host.absf main_arg0
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  let main_v4 : FVec F S64x1024x512 .f32 := Host.absf main_arg1
  let main_cst_0 : FVec F S_ .f32 := constant S_ .f32 0x7F800000#32
  let main_v5 : FVec F S64x1024x512 .f32 := broadcastInDim S64x1024x512 ![] bcast_S_S64x1024x512 main_cst_0
  let main_v6 : IVec S64x1024x512 1 := cmpf .olt main_v4 main_v5
  let main_c_1 : IVec S_ 1 := constantI S_ 1 1#1
  let main_v7 : IVec S_ 1 := (fun x v => Host.reduce IntOp.andi x v reducesTo_S64x1024x512_S_d0_1_2 h_S_) main_v6 main_c_1
  let main_v8 : IVec S_ 1 := andi main_v3 main_v7
  main_v8
-- ==== Kernel.lean ====
abbrev S64x256x512 : Shape := ⟨3, ![64, 256, 512]⟩
abbrev S64x1024x512 : Shape := ⟨3, ![64, 1024, 512]⟩
abbrev S1x256x512 : Shape := ⟨3, ![1, 256, 512]⟩
abbrev S1x1024x512 : Shape := ⟨3, ![1, 1024, 512]⟩
abbrev S1x512 : Shape := ⟨2, ![1, 512]⟩
abbrev S1x1x512 : Shape := ⟨3, ![1, 1, 512]⟩

abbrev nBuf : Space → Nat
  | .hbm => 4
  | .vmem => 8
  | .smem => 0
  | _ => 0

abbrev bufTy : (tb : Table) → Fin (tcTables nBuf tb) → BufTy
  | .hbm, ⟨0, _⟩ => ⟨S64x256x512, .f32⟩
  | .hbm, ⟨1, _⟩ => ⟨S64x1024x512, .f32⟩
  | .hbm, ⟨2, _⟩ => ⟨S64x256x512, .f32⟩
  | .hbm, ⟨3, _⟩ => ⟨S64x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x1024x512, .f32⟩
  | .local _ .vmem, ⟨3, _⟩ => ⟨S1x1024x512, .f32⟩
  | .local _ .vmem, ⟨4, _⟩ => ⟨S1x256x512, .f32⟩
  | .local _ .vmem, ⟨5, _⟩ => ⟨S1x256x512, .f32⟩
  | .local _ .vmem, ⟨6, _⟩ => ⟨S1x1024x512, .f32⟩
  | .local _ .vmem, ⟨7, _⟩ => ⟨S1x1024x512, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x256x512_S1x256x512_0_0_0 : ∀ a, (![0, 0, 0] : Fin 3 → Nat) a + S1x256x512.size a ≤ S1x256x512.size a
  h_S1x256x512 : 0 < S1x256x512.numel
  inb_S1x1024x512_S1x1024x512_0_0_0 : ∀ a, (![0, 0, 0] : Fin 3 → Nat) a + S1x1024x512.size a ≤ S1x1024x512.size a
  h_S1x1024x512 : 0 < S1x1024x512.numel
  reduces_S1x256x512_S1x512 : S1x256x512.Reduces [1] S1x512
  shapeCasts_S1x512_S1x1x512 : S1x512.ShapeCasts S1x1x512
  reduces_S1x1024x512_S1x512 : S1x1024x512.Reduces [1] S1x512
  broadcasts_S1x1x512_S1x256x512 : S1x1x512.Broadcasts S1x256x512
  broadcasts_S1x1x512_S1x1024x512 : S1x1x512.Broadcasts S1x1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S64x256x512.size a
  hwx0_0 : ∀ i : grid0.Coords, EltTy.bits .f32 = 32 ∨ (Rect.block (s := S64x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S64x1024x512.size a
  hwx0_1 : ∀ i : grid0.Coords, EltTy.bits .f32 = 32 ∨ (Rect.block (s := S64x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S64x256x512.size a
  hwx0_2 : ∀ i : grid0.Coords, EltTy.bits .f32 = 32 ∨ (Rect.block (s := S64x256x512) S1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S64x1024x512.size a
  hwx0_3 : ∀ i : grid0.Coords, EltTy.bits .f32 = 32 ∨ (Rect.block (s := S64x1024x512) S1x1024x512.size (cc0_transform_3 i) (hinb0_3 i)).WholeWords (EltTy.packing .f32)

variable [Facts₀]

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x512 : Shape := ⟨3, ![64, 256, 512]⟩
abbrev S64x1024x512 : Shape := ⟨3, ![64, 1024, 512]⟩
abbrev S_ : Shape := ⟨0, ![]⟩
abbrev S64x512 : Shape := ⟨2, ![64, 512]⟩
abbrev S64x1x512 : Shape := ⟨3, ![64, 1, 512]⟩

abbrev nBuf : Space → Nat
  | .hbm => 12
  | .vmem => 0
  | .smem => 0
  | _ => 0

abbrev bufTy : (tb : Table) → Fin (tcTables nBuf tb) → BufTy
  | .hbm, ⟨0, _⟩ => ⟨S64x256x512, .f32⟩
  | .hbm, ⟨1, _⟩ => ⟨S64x1024x512, .f32⟩
  | .hbm, ⟨2, _⟩ => ⟨S_, .f32⟩
  | .hbm, ⟨3, _⟩ => ⟨S64x512, .f32⟩
  | .hbm, ⟨4, _⟩ => ⟨S64x1x512, .f32⟩
  | .hbm, ⟨5, _⟩ => ⟨S_, .f32⟩
  | .hbm, ⟨6, _⟩ => ⟨S64x512, .f32⟩
  | .hbm, ⟨7, _⟩ => ⟨S64x1x512, .f32⟩
  | .hbm, ⟨8, _⟩ => ⟨S64x256x512, .f32⟩
  | .hbm, ⟨9, _⟩ => ⟨S64x256x512, .f32⟩
  | .hbm, ⟨10, _⟩ => ⟨S64x1024x512, .f32⟩
  | .hbm, ⟨11, _⟩ => ⟨S64x1024x512, .f32⟩
  | _, _ => ⟨S64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S64x1024x512_S64x512_d1 : S64x1024x512.ReducesTo [1] S64x512
  h_S_ : 0 < S_.numel
  bcast_S64x512_S64x1x512_0_2 : S64x512.BroadcastsInDim S64x1x512 (![0, 2] : Fin 2 → Fin S64x1x512.rank)
  reducesTo_S64x256x512_S64x512_d1 : S64x256x512.ReducesTo [1] S64x512
  bcast_S64x1x512_S64x256x512_0_1_2 : S64x1x512.BroadcastsInDim S64x256x512 (![0, 1, 2] : Fin 3 → Fin S64x256x512.rank)
  bcast_S64x1x512_S64x1024x512_0_1_2 : S64x1x512.BroadcastsInDim S64x1024x512 (![0, 1, 2] : Fin 3 → Fin S64x1024x512.rank)

variable [Facts₀]

class Facts : Prop extends Facts₀ where

variable [Facts]
-- ==== Proof.Aggregate.lean ====
/-
  What both programs compute, as two functions of the argument arrays, index by index, on the extended reals.

  The arguments are `user : [64, 256, 512]` (batch, user, feature) and `img : [64, 1024, 512]` (batch, image, feature).
  For a batch `b` and a feature `d` write `imgTotal img b d = ∑ i, img[b, i, d]` and `userTotal user b d = ∑ u, user[b, u, d]`.
  The two results are
    `aggUser[b, u, d] = user[b, u, d] · imgTotal img b d`      and      `aggImg[b, i, d] = img[b, i, d] · userTotal user b d`:
  the interaction `user[b, u, d] · img[b, i, d]` summed over `i` (resp. over `u`) with the factor that does not move taken out
  of the sum, which is how BOTH programs are written. So the two programs are one arrangement of one formula, and
  no law of the extended reals joins them beyond `0 + x = x` for the zero each sum starts from.
-/
import Idealize.ShloMosaic.PureOps.Ideal
import Idealize.ShloMosaic.Lib.ValueIdx

noncomputable section

namespace Cert.Interaction

open Idealize.ShloMosaic Idealize.ShloMosaic.ValueIdx

/-- The shape of `user` and of the first result. -/
abbrev UserShape : Shape := ⟨3, ![64, 256, 512]⟩
/-- The shape of `img` and of the second result. -/
abbrev ImgShape : Shape := ⟨3, ![64, 1024, 512]⟩

/-- Batch `b`'s image rows summed, at feature `d`. -/
def imgTotal (img : ImgShape.Idx → EReal) (b : Fin 64) (d : Fin 512) : EReal := ∑ i : Fin 1024, img (ix3 b i d)

/-- Batch `b`'s user rows summed, at feature `d`. -/
def userTotal (user : UserShape.Idx → EReal) (b : Fin 64) (d : Fin 512) : EReal := ∑ u : Fin 256, user (ix3 b u d)

/-- The first result: each user entry times its batch's image total at the same feature. -/
def aggUser (user : UserShape.Idx → EReal) (img : ImgShape.Idx → EReal) : UserShape.Idx → EReal :=
  fun j => user j * imgTotal img (j 0) (j 2)

/-- The second result: each image entry times its batch's user total at the same feature. -/
def aggImg (user : UserShape.Idx → EReal) (img : ImgShape.Idx → EReal) : ImgShape.Idx → EReal :=
  fun j => img j * userTotal user (j 0) (j 2)

/-- `aggUser` at explicit coordinates. -/
theorem aggUser_ix3 (user : UserShape.Idx → EReal) (img : ImgShape.Idx → EReal) (b : Fin 64) (u : Fin 256) (d : Fin 512) :
    aggUser user img (ix3 b u d) = user (ix3 b u d) * ∑ i : Fin 1024, img (ix3 b i d) := rfl

/-- `aggImg` at explicit coordinates. -/
theorem aggImg_ix3 (user : UserShape.Idx → EReal) (img : ImgShape.Idx → EReal) (b : Fin 64) (i : Fin 1024) (d : Fin 512) :
    aggImg user img (ix3 b i d) = img (ix3 b i d) * ∑ u : Fin 256, user (ix3 b u d) := rfl

end Cert.Interaction

end
-- ==== Proof.KernelValue.lean ====
/-
  The idealized kernel's two result arrays as functions of its argument arrays.

  The grid has one point per batch. At point `t` the four windows sit on batch `t`: the blocks are `user[t, :, :]`,
  `img[t, :, :]` and the same slices of the two results, each with a leading axis of extent one. The body sums the image
  block over its rows, `s[d] = ∑ i, img[t, i, d]`, and stores `user[t, u, d] · s[d]` into the first result's block; it sums the
  user block over its rows and stores `img[t, i, d] · ∑ u, user[t, u, d]` into the second's. So block `t` of each result is
  batch `t`'s slice of `Interaction.aggUser` / `Interaction.aggImg` of the whole arrays, and since the 64 blocks tile each
  result array, the arrays end at those two functions.
-/
import proofs.«178365_j3942779977809_1_alg».proof.Proof.Gen.KernelIdeal.Value
import proofs.«178365_j3942779977809_1_alg».proof.Proof.Aggregate
import Idealize.ShloMosaic.Lib.Pipeline.Value
import Idealize.ShloMosaic.Lib.ValueIdx
import Idealize.ShloMosaic.PureOps.Ideal.Laws

noncomputable section

namespace Cert.KernelIdeal.AggValue

open Cert.KernelIdeal Cert.KernelIdeal.Gen Idealize.ShloMosaic Idealize.ShloMosaic.TcCoe Idealize.SL.Sem
open Idealize.ShloMosaic.ValueIdx Cert.Interaction
open Idealize.ShloMosaic.Pipeline (Dat)

/-! ## One grid point: the body's two stores, read at an index -/

/-- The body's accesses start at the block's origin. -/
theorem origin : (![0, 0, 0] : Fin 3 → Nat) = fun _ => 0 := funext fun a => by fin_cases a <;> rfl

/-- What the body leaves in the first result's block, at row `r` and feature `d`: the user block's entry there times the image
    block's column sum at `d`. -/
theorem userBlock_apply (x0 : Vec Ideal S1x256x512 .f32) (x1 : Vec Ideal S1x1024x512 .f32) (r : Fin 256) (d : Fin 512) :
    out0_2 x0 x1 (ix3 0 r d) = x0 (ix3 0 r d) * ∑ k : Fin 1024, x1 (ix3 0 k d) := by
  unfold out0_2
  refine (Value.canon2_eq (F := Ideal) _ _ _).trans ?_
  rw [View.ld_unit_zero (S := S1x256x512) origin, View.ld_unit_zero (S := S1x1024x512) origin]
  show x0 (Value.ix2_0 (ix3 0 r d))
      * (multiReduction (F := Ideal) .add [1] S1x512 x1 0x00000000#32 reduces_S1x1024x512_S1x512 (.inl rfl) rfl) (Value.ix2_1 (ix3 0 r d)) = _
  refine congrArg₂ (· * ·) (congrArg x0 ?_)
    ((Ideal.multiReduction_add_single x1 0x00000000#32 reduces_S1x1024x512_S1x512 (.inl rfl) rfl _).trans
      (Finset.sum_congr rfl fun k _ => congrArg x1 ?_))
  · funext a; apply Fin.ext; match a with | ⟨0, _⟩ => rfl | ⟨1, _⟩ => rfl | ⟨2, _⟩ => rfl
  · funext a; apply Fin.ext; match a with | ⟨0, _⟩ => rfl | ⟨1, _⟩ => rfl | ⟨2, _⟩ => rfl

/-- What the body leaves in the second result's block, at row `i` and feature `d`: the image block's entry there times the user
    block's column sum at `d`. -/
theorem imgBlock_apply (x0 : Vec Ideal S1x256x512 .f32) (x1 : Vec Ideal S1x1024x512 .f32) (i : Fin 1024) (d : Fin 512) :
    out0_3 x0 x1 (ix3 0 i d) = x1 (ix3 0 i d) * ∑ k : Fin 256, x0 (ix3 0 k d) := by
  unfold out0_3
  refine (Value.canon3_eq (F := Ideal) _ _ _).trans ?_
  rw [View.ld_unit_zero (S := S1x256x512) origin, View.ld_unit_zero (S := S1x1024x512) origin]
  show x1 (Value.ix3_0 (ix3 0 i d))
      * (multiReduction (F := Ideal) .add [1] S1x512 x0 0x00000000#32 reduces_S1x256x512_S1x512 (.inl rfl) rfl) (Value.ix3_1 (ix3 0 i d)) = _
  refine congrArg₂ (· * ·) (congrArg x1 ?_)
    ((Ideal.multiReduction_add_single x0 0x00000000#32 reduces_S1x256x512_S1x512 (.inl rfl) rfl _).trans
      (Finset.sum_congr rfl fun k _ => congrArg x0 ?_))
  · funext a; apply Fin.ext; match a with | ⟨0, _⟩ => rfl | ⟨1, _⟩ => rfl | ⟨2, _⟩ => rfl
  · funext a; apply Fin.ext; match a with | ⟨0, _⟩ => rfl | ⟨1, _⟩ => rfl | ⟨2, _⟩ => rfl

/-- If the two input blocks are batch `b`'s slices of `user` and `img`, the first result's block at `y` is `aggUser user img` at
    the array index `j` that lies in batch `b` at `y`'s row and feature. -/
theorem userBlock_eq (user : UserShape.Idx → EReal) (img : ImgShape.Idx → EReal) (b : Fin 64)
    (x0 : Vec Ideal S1x256x512 .f32) (x1 : Vec Ideal S1x1024x512 .f32)
    (h0 : ∀ (r : Fin 256) (d : Fin 512), x0 (ix3 0 r d) = user (ix3 b r d))
    (h1 : ∀ (k : Fin 1024) (d : Fin 512), x1 (ix3 0 k d) = img (ix3 b k d))
    (y : S1x256x512.Idx) (j : UserShape.Idx)
    (hj0 : (j 0).val = b.val) (hj1 : (j 1).val = (y 1).val) (hj2 : (j 2).val = (y 2).val) :
    out0_2 x0 x1 y = aggUser user img j := by
  obtain ⟨p, r, d, rfl⟩ : ∃ (p : Fin 1) (r : Fin 256) (d : Fin 512), y = ix3 p r d := ⟨y 0, y 1, y 2, eq_ix3 y⟩
  obtain rfl : p = 0 := Subsingleton.elim _ _
  obtain rfl : j = ix3 b r d :=
    funext fun a => Fin.ext (match a with | ⟨0, _⟩ => hj0 | ⟨1, _⟩ => hj1 | ⟨2, _⟩ => hj2)
  rw [userBlock_apply, aggUser_ix3, h0]
  exact congrArg (_ * ·) (Finset.sum_congr rfl fun k _ => h1 k d)

/-- If the two input blocks are batch `b`'s slices of `user` and `img`, the second result's block at `y` is `aggImg user img` at
    the array index `j` that lies in batch `b` at `y`'s row and feature. -/
theorem imgBlock_eq (user : UserShape.Idx → EReal) (img : ImgShape.Idx → EReal) (b : Fin 64)
    (x0 : Vec Ideal S1x256x512 .f32) (x1 : Vec Ideal S1x1024x512 .f32)
    (h0 : ∀ (r : Fin 256) (d : Fin 512), x0 (ix3 0 r d) = user (ix3 b r d))
    (h1 : ∀ (k : Fin 1024) (d : Fin 512), x1 (ix3 0 k d) = img (ix3 b k d))
    (y : S1x1024x512.Idx) (j : ImgShape.Idx)
    (hj0 : (j 0).val = b.val) (hj1 : (j 1).val = (y 1).val) (hj2 : (j 2).val = (y 2).val) :
    out0_3 x0 x1 y = aggImg user img j := by
  obtain ⟨p, i, d, rfl⟩ : ∃ (p : Fin 1) (i : Fin 1024) (d : Fin 512), y = ix3 p i d := ⟨y 0, y 1, y 2, eq_ix3 y⟩
  obtain rfl : p = 0 := Subsingleton.elim _ _
  obtain rfl : j = ix3 b i d :=
    funext fun a => Fin.ext (match a with | ⟨0, _⟩ => hj0 | ⟨1, _⟩ => hj1 | ⟨2, _⟩ => hj2)
  rw [imgBlock_apply, aggImg_ix3, h1]
  exact congrArg (_ * ·) (Finset.sum_congr rfl fun k _ => h0 k d)

end Cert.KernelIdeal.AggValue

end
-- ==== Proof.KernelArrays.lean ====
/-
  From blocks to arrays: the idealized kernel's run ends with its two result arrays at `Interaction.aggUser` and
  `Interaction.aggImg` of the argument arrays.

  Every window's block index at grid point `t` is `(b, 0, 0)` with one and the same batch `b < 64` for all four windows, and
  every batch is some point's (both decided over the 64 points). So at point `t` the input blocks are batch `b`'s slices of
  the argument arrays, an index `y` of a result's block lies under the array index `(b, y₁, y₂)`, and what the point writes
  back is batch `b`'s slice of the result function (`userBlock_eq`, `imgBlock_eq`). An array index `(b, r, d)` is in the
  block of the point whose batch is `b`, so the blocks cover each result array and the array ends at the function.
-/
import proofs.«178365_j3942779977809_1_alg».proof.Proof.KernelValue

noncomputable section

namespace Cert.KernelIdeal.AggValue

open Cert.KernelIdeal Cert.KernelIdeal.Gen Idealize.ShloMosaic Idealize.ShloMosaic.TcCoe Idealize.SL.Sem
open Idealize.ShloMosaic.ValueIdx Cert.Interaction
open Idealize.ShloMosaic.Pipeline (Dat)

variable (m : (ℓ : Loc nD τ sig) → Buf (Elt Ideal) ℓ) (ρ : Dev nD → PrngReg)

/-! ## The index maps -/

/-- At every grid point the four windows are on one batch `b < 64`, at block index `(b, 0, 0)`. -/
theorem index_facts : ∀ t : Fin cfg0.N,
    win0_2.index t (0 : Fin 3) < 64
    ∧ win0_0.index t (0 : Fin 3) = win0_2.index t (0 : Fin 3)
    ∧ win0_1.index t (0 : Fin 3) = win0_2.index t (0 : Fin 3)
    ∧ win0_3.index t (0 : Fin 3) = win0_2.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0
    ∧ win0_3.index t (1 : Fin 3) = 0 ∧ win0_3.index t (2 : Fin 3) = 0 :=
  (by decide +kernel : ∀ t : Fin grid0.N, _)

/-- Every batch is some grid point's. -/
theorem index_onto : ∀ b : Fin 64, ∃ t : Fin cfg0.N, win0_2.index t (0 : Fin 3) = b.val :=
  (by decide +kernel : ∀ b : Fin 64, ∃ t : Fin grid0.N, win0_2.index t (0 : Fin 3) = b.val)

/-! ## What a point writes back -/

/-- Point `t` writes back, to the first result, block `t` of `aggUser` of the argument arrays. -/
theorem flushedUser_eq (c : Dev nD) (t : Fin cfg0.N) :
    (dats m 0 c).flushed 2 t
      = ((cfg0.win 2).blk t).view.read (Elt Ideal) (aggUser (V m c main_arg0) (V m c main_arg1)) := by
  obtain ⟨hb, e0, e1, e3, z01, z02, z11, z12, z21, z22, z31, z32⟩ := index_facts t
  rw [Value.flushed2]
  funext y
  have hy0 : (y 0).val < 1 := (y 0).isLt
  show out0_2 (iblk m c 0 t) (iblk m c 1 t) y
      = aggUser (V m c main_arg0) (V m c main_arg1) (((cfg0.win 2).blk t).view.emb y)
  refine userBlock_eq (V m c main_arg0) (V m c main_arg1) ⟨win0_2.index t (0 : Fin 3), hb⟩
    (iblk m c 0 t) (iblk m c 1 t) ?_ ?_ y (((cfg0.win 2).blk t).view.emb y) ?_ ?_ ?_
  · intro r d
    show V m c main_arg0 (((cfg0.win 0).blk t).view.emb (ix3 0 r d)) = _
    refine congrArg _ (funext fun a => Fin.ext ?_)
    match a with
    | ⟨0, _⟩ => show win0_0.index t (0 : Fin 3) * 1 + 1 * 0 = win0_2.index t (0 : Fin 3); omega
    | ⟨1, _⟩ => show win0_0.index t (1 : Fin 3) * 256 + 1 * r.val = r.val; omega
    | ⟨2, _⟩ => show win0_0.index t (2 : Fin 3) * 512 + 1 * d.val = d.val; omega
  · intro k d
    show V m c main_arg1 (((cfg0.win 1).blk t).view.emb (ix3 0 k d)) = _
    refine congrArg _ (funext fun a => Fin.ext ?_)
    match a with
    | ⟨0, _⟩ => show win0_1.index t (0 : Fin 3) * 1 + 1 * 0 = win0_2.index t (0 : Fin 3); omega
    | ⟨1, _⟩ => show win0_1.index t (1 : Fin 3) * 1024 + 1 * k.val = k.val; omega
    | ⟨2, _⟩ => show win0_1.index t (2 : Fin 3) * 512 + 1 * d.val = d.val; omega
  · show win0_2.index t (0 : Fin 3) * 1 + 1 * (y 0).val = win0_2.index t (0 : Fin 3); omega
  · show win0_2.index t (1 : Fin 3) * 256 + 1 * (y 1).val = (y 1).val; omega
  · show win0_2.index t (2 : Fin 3) * 512 + 1 * (y 2).val = (y 2).val; omega

/-- Point `t` writes back, to the second result, block `t` of `aggImg` of the argument arrays. -/
theorem flushedImg_eq (c : Dev nD) (t : Fin cfg0.N) :
    (dats m 0 c).flushed 3 t
      = ((cfg0.win 3).blk t).view.read (Elt Ideal) (aggImg (V m c main_arg0) (V m c main_arg1)) := by
  obtain ⟨hb, e0, e1, e3, z01, z02, z11, z12, z21, z22, z31, z32⟩ := index_facts t
  rw [Value.flushed3]
  funext y
  have hy0 : (y 0).val < 1 := (y 0).isLt
  show out0_3 (iblk m c 0 t) (iblk m c 1 t) y
      = aggImg (V m c main_arg0) (V m c main_arg1) (((cfg0.win 3).blk t).view.emb y)
  refine imgBlock_eq (V m c main_arg0) (V m c main_arg1) ⟨win0_2.index t (0 : Fin 3), hb⟩
    (iblk m c 0 t) (iblk m c 1 t) ?_ ?_ y (((cfg0.win 3).blk t).view.emb y) ?_ ?_ ?_
  · intro r d
    show V m c main_arg0 (((cfg0.win 0).blk t).view.emb (ix3 0 r d)) = _
    refine congrArg _ (funext fun a => Fin.ext ?_)
    match a with
    | ⟨0, _⟩ => show win0_0.index t (0 : Fin 3) * 1 + 1 * 0 = win0_2.index t (0 : Fin 3); omega
    | ⟨1, _⟩ => show win0_0.index t (1 : Fin 3) * 256 + 1 * r.val = r.val; omega
    | ⟨2, _⟩ => show win0_0.index t (2 : Fin 3) * 512 + 1 * d.val = d.val; omega
  · intro k d
    show V m c main_arg1 (((cfg0.win 1).blk t).view.emb (ix3 0 k d)) = _
    refine congrArg _ (funext fun a => Fin.ext ?_)
    match a with
    | ⟨0, _⟩ => show win0_1.index t (0 : Fin 3) * 1 + 1 * 0 = win0_2.index t (0 : Fin 3); omega
    | ⟨1, _⟩ => show win0_1.index t (1 : Fin 3) * 1024 + 1 * k.val = k.val; omega
    | ⟨2, _⟩ => show win0_1.index t (2 : Fin 3) * 512 + 1 * d.val = d.val; omega
  · show win0_3.index t (0 : Fin 3) * 1 + 1 * (y 0).val = win0_2.index t (0 : Fin 3); omega
  · show win0_3.index t (1 : Fin 3) * 1024 + 1 * (y 1).val = (y 1).val; omega
  · show win0_3.index t (2 : Fin 3) * 512 + 1 * (y 2).val = (y 2).val; omega

/-! ## The blocks cover the arrays -/

/-- An index of the first result is in point `t`'s block iff each coordinate is in the block's range on its axis. -/
theorem mem_userBlk (t : Fin cfg0.N) (i : S64x256x512.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v0_0).slice (win0_2.rect t)).set ↔ _
  rw [View.set_slice_whole, Rect.mem_set_unit]
  exact Iff.rfl

/-- An index of the second result is in point `t`'s block iff each coordinate is in the block's range on its axis. -/
theorem mem_imgBlk (t : Fin cfg0.N) (i : S64x1024x512.Idx) :
    i ∈ ((cfg0.win 3).blk t).view.set ↔ ∀ a : Fin 3, win0_3.index t a * S1x1024x512.size a ≤ (i a).val
      ∧ (i a).val < win0_3.index t a * S1x1024x512.size a + S1x1024x512.size a := by
  show i ∈ ((View.whole main_v0_1).slice (win0_3.rect t)).set ↔ _
  rw [View.set_slice_whole, Rect.mem_set_unit]
  exact Iff.rfl

/-- Every index of the first result is in the block of its batch's point. -/
theorem userCover (i : S64x256x512.Idx) :
    ∃ t : Fin cfg0.N, (cfg0.win 2).flush t = true ∧ i ∈ ((cfg0.win 2).blk t).view.set := by
  have hi0 : (i 0).val < 64 := (i 0).isLt
  have hi1 : (i 1).val < 256 := (i 1).isLt
  have hi2 : (i 2).val < 512 := (i 2).isLt
  obtain ⟨t, ht⟩ := index_onto ⟨(i 0).val, hi0⟩
  have ht' : win0_2.index t (0 : Fin 3) = (i 0).val := ht
  obtain ⟨hb, e0, e1, e3, z01, z02, z11, z12, z21, z22, z31, z32⟩ := index_facts t
  refine ⟨t, flush0_2 t, ?_⟩
  rw [mem_userBlk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- Every index of the second result is in the block of its batch's point. -/
theorem imgCover (i : S64x1024x512.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 512 := (i 2).isLt
  obtain ⟨t, ht⟩ := index_onto ⟨(i 0).val, hi0⟩
  have ht' : win0_2.index t (0 : Fin 3) = (i 0).val := ht
  obtain ⟨hb, e0, e1, e3, z01, z02, z11, z12, z21, z22, z31, z32⟩ := index_facts t
  refine ⟨t, flush0_3 t, ?_⟩
  rw [mem_imgBlk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-! ## The arrays after the run -/

/-- The first result array ends at `aggUser` of the argument arrays as launched. -/
theorem userFinal (c : Dev nD) :
    (dats m 0 c).arrAt 2 cfg0.N
      = aggUser (m ((c : Thread nD τ).loc main_arg0)) (m ((c : Thread nD τ).loc main_arg1)) :=
  (dats m 0 c).arrAt_eq_of_cover 2 (aggUser (V m c main_arg0) (V m c main_arg1))
    (fun t _ => flushedUser_eq m c t) userCover

/-- The second result array ends at `aggImg` of the argument arrays as launched. -/
theorem imgFinal (c : Dev nD) :
    (dats m 0 c).arrAt 3 cfg0.N
      = aggImg (m ((c : Thread nD τ).loc main_arg0)) (m ((c : Thread nD τ).loc main_arg1)) :=
  (dats m 0 c).arrAt_eq_of_cover 3 (aggImg (V m c main_arg0) (V m c main_arg1))
    (fun t _ => flushedImg_eq m c t) imgCover

/-- The idealized kernel's run: every weakly fair execution ends, without a fault, with the two results at `aggUser` and
    `aggImg` of the arguments and the arguments unchanged. -/
theorem run : θ_run defs (onTc (τ := τ) (main (F := Ideal))) ⟨m, fun _ => 0, ρ⟩ fun r => ∀ c : Dev nD,
      r.2.mem ((c : Thread nD τ).loc main_v0_0)
        = aggUser (m ((c : Thread nD τ).loc main_arg0)) (m ((c : Thread nD τ).loc main_arg1))
      ∧ r.2.mem ((c : Thread nD τ).loc main_v0_1)
        = aggImg (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (userFinal m c), (h c).2.1.trans (imgFinal m c), (h c).2.2.1, (h c).2.2.2⟩)
    (Value.run_blocks m ρ)

end Cert.KernelIdeal.AggValue

end
-- ==== Proof.ReferenceValue.lean ====
/-
  The idealized reference's two results as functions of its argument arrays.

  The reference sums `img` over its image axis from zero, `s[b, d] = 0 + ∑ i, img[b, i, d]`, inserts a unit axis, spreads it
  over the user axis and multiplies by `user`: `user[b, u, d] · s[b, d]`; the second result likewise with the two arguments
  exchanged. Read one operation at a time through the generated index lemmas, the index the sum is read at is
  `(b, i, d)`, and `0 + x = x`: these are `Interaction.aggUser` and `Interaction.aggImg`.
-/
import proofs.«178365_j3942779977809_1_alg».proof.Proof.Gen.ReferenceIdeal.Read
import proofs.«178365_j3942779977809_1_alg».proof.Proof.Aggregate
import Idealize.ShloMosaic.Lib.ValueIdx
import Idealize.ShloMosaic.PureOps.Ideal.Laws

noncomputable section

namespace Cert.ReferenceIdeal.AggValue

open Cert.ReferenceIdeal Cert.ReferenceIdeal.Gen Cert.ReferenceIdeal.Read Idealize.ShloMosaic Idealize.ShloMosaic.TcCoe
open Idealize.ShloMosaic.ValueIdx Cert.Interaction

/-- The reference's first result is `aggUser` of its arguments. -/
theorem user_eq (x0 : (⟨S64x256x512, .f32⟩ : BufTy).Contents (Elt Ideal)) (x1 : (⟨S64x1024x512, .f32⟩ : BufTy).Contents (Elt Ideal)) :
    val_main_v5 (F := Ideal) x0 x1 = aggUser x0 x1 := by
  funext j
  obtain ⟨b, u, d, rfl⟩ : ∃ (b : Fin 64) (u : Fin 256) (d : Fin 512), j = ix3 b u d := ⟨j 0, j 1, j 2, eq_ix3 j⟩
  rw [val_main_v5_apply, val_main_v4_apply, val_main_v1_apply, val_main_v0_apply, val_main_cst_apply, aggUser_ix3]
  show x0 (ix3 b u d) * (Ideal.ofBits .f32 0x00000000#32 + ∑ k : Fin 1024, x1 (idx_main_v0 (idx_main_v1 (idx_main_v4 (ix3 b u d))) k)) = _
  rw [Ideal.ofBits_zero_f32, zero_add]
  refine congrArg (_ * ·) (Finset.sum_congr rfl fun k _ => congrArg x1 ?_)
  funext a; apply Fin.ext; match a with | ⟨0, _⟩ => rfl | ⟨1, _⟩ => rfl | ⟨2, _⟩ => rfl

/-- The reference's second result is `aggImg` of its arguments. -/
theorem img_eq (x0 : (⟨S64x256x512, .f32⟩ : BufTy).Contents (Elt Ideal)) (x1 : (⟨S64x1024x512, .f32⟩ : BufTy).Contents (Elt Ideal)) :
    val_main_v7 (F := Ideal) x0 x1 = aggImg x0 x1 := by
  funext j
  obtain ⟨b, i, d, rfl⟩ : ∃ (b : Fin 64) (i : Fin 1024) (d : Fin 512), j = ix3 b i d := ⟨j 0, j 1, j 2, eq_ix3 j⟩
  rw [val_main_v7_apply, val_main_v6_apply, val_main_v3_apply, val_main_v2_apply, val_main_cst_0_apply, aggImg_ix3]
  show x1 (ix3 b i d) * (Ideal.ofBits .f32 0x00000000#32 + ∑ k : Fin 256, x0 (idx_main_v2 (idx_main_v3 (idx_main_v6 (ix3 b i d))) k)) = _
  rw [Ideal.ofBits_zero_f32, zero_add]
  refine congrArg (_ * ·) (Finset.sum_congr rfl fun k _ => congrArg x0 ?_)
  funext a; apply Fin.ext; match a with | ⟨0, _⟩ => rfl | ⟨1, _⟩ => rfl | ⟨2, _⟩ => rfl

end Cert.ReferenceIdeal.AggValue

end
-- ==== Proof.lean ====
/- The proof of `Cert.Claim`: the Pallas kernel `_interaction_kernel` against its jnp reference, over the extended reals.

   Both programs take `user : f32[64, 256, 512]` and `img : f32[64, 1024, 512]` and return
     `aggUser[b, u, d] = user[b, u, d] · ∑ i, img[b, i, d]`   and   `aggImg[b, i, d] = img[b, i, d] · ∑ u, user[b, u, d]`
   (Proof/Aggregate.lean). The kernel does it one batch per grid point, each sum a reduction of the batch's block over its
   rows (Proof/KernelValue.lean: one point's two stores; Proof/KernelArrays.lean: the 64 blocks tile each result). The
   reference does it on whole arrays, each sum started from a zero constant and spread back over the reduced axis
   (Proof/ReferenceValue.lean). The two are one arrangement of one formula: only `0 + x = x` is used, and the precondition
   that the inputs are finite is never opened.

   The three frames: the kernel's at the word level and at the ideal level are the generated frame certificates; the
   reference's is its generated run with the results dropped. `preserves` is `True`: the ideal pass rewrote nothing. -/
import proofs.«178365_j3942779977809_1_alg».proof.Defs
import proofs.«178365_j3942779977809_1_alg».proof.Proof.Gen.Kernel
import proofs.«178365_j3942779977809_1_alg».proof.Proof.Gen.Kernel.Skeleton
import proofs.«178365_j3942779977809_1_alg».proof.Proof.Gen.Kernel.Launch
import proofs.«178365_j3942779977809_1_alg».proof.Proof.Gen.Kernel.Points
import proofs.«178365_j3942779977809_1_alg».proof.Proof.Gen.Kernel.Frame
import proofs.«178365_j3942779977809_1_alg».proof.Proof.Gen.KernelIdeal
import proofs.«178365_j3942779977809_1_alg».proof.Proof.Gen.KernelIdeal.Skeleton
import proofs.«178365_j3942779977809_1_alg».proof.Proof.Gen.KernelIdeal.Launch
import proofs.«178365_j3942779977809_1_alg».proof.Proof.Gen.KernelIdeal.Points
import proofs.«178365_j3942779977809_1_alg».proof.Proof.Gen.KernelIdeal.Frame
import proofs.«178365_j3942779977809_1_alg».proof.Proof.Gen.ReferenceIdeal
import proofs.«178365_j3942779977809_1_alg».proof.Proof.Gen.Pre_finite_inputs
import proofs.«178365_j3942779977809_1_alg».proof.Proof.Gen.KernelIdeal.Value
import proofs.«178365_j3942779977809_1_alg».proof.Proof.Gen.ReferenceIdeal.Run
import proofs.«178365_j3942779977809_1_alg».proof.Proof.Gen.ReferenceIdeal.Read
import proofs.«178365_j3942779977809_1_alg».proof.Proof.KernelArrays
import proofs.«178365_j3942779977809_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as they were: its run, the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories that agree on `user` and `img`, the idealized kernel ends with its results at `aggUser` and `aggImg` of
    them (`AggValue.run`), and the idealized reference ends with its results at the same two functions of the same arrays
    (`AggValue.user_eq`, `AggValue.img_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.AggValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [(hagree c).1, (hagree c).2]
    exact (Cert.ReferenceIdeal.Read.val_main_v5_eq _ _).trans (Cert.ReferenceIdeal.AggValue.user_eq _ _)
  · rw [(hagree c).1, (hagree c).2]
    exact (Cert.ReferenceIdeal.Read.val_main_v7_eq _ _).trans (Cert.ReferenceIdeal.AggValue.img_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
